-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128x128 .f32) (main_arg9 : FVec F S128x128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S50000x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : IVec S600000 32) (main_arg12 : IVec S600000 32) (main_arg13 : IVec S600000 32) (main_arg14 : IVec S600000 32) (main_arg15 : IVec S600000 32) (main_arg16 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S5000x128 : Shape := ⟨2, ![5000, 128]⟩
abbrev S1x128 : Shape := ⟨2, ![1, 128]⟩

abbrev nBuf : Space → Nat
  | .hbm => 94
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .f32⟩
  | .hbm, ⟨43, _⟩ => ⟨S600000, .f32⟩
  | .hbm, ⟨44, _⟩ => ⟨S_, .f32⟩
  | .hbm, ⟨45, _⟩ => ⟨S50000, .f32⟩
  | .hbm, ⟨46, _⟩ => ⟨S600000x1, .i32⟩
  | .hbm, ⟨47, _⟩ => ⟨S50000, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S_, .f32⟩
  | .hbm, ⟨58, _⟩ => ⟨S50000x128, .f32⟩
  | .hbm, ⟨59, _⟩ => ⟨S600000x1, .i32⟩
  | .hbm, ⟨60, _⟩ => ⟨S50000x128, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S600000, .f32⟩
  | .hbm, ⟨69, _⟩ => ⟨S_, .f32⟩
  | .hbm, ⟨70, _⟩ => ⟨S50000, .f32⟩
  | .hbm, ⟨71, _⟩ => ⟨S600000x1, .i32⟩
  | .hbm, ⟨72, _⟩ => ⟨S50000, .f32⟩
  | .hbm, ⟨73, _⟩ => ⟨S_, .i32⟩
  | .hbm, ⟨74, _⟩ => ⟨S600000, .i32⟩
  | .hbm, ⟨75, _⟩ => ⟨S600000, .i1⟩
  | .hbm, ⟨76, _⟩ => ⟨S_, .i32⟩
  | .hbm, ⟨77, _⟩ => ⟨S600000, .i32⟩
  | .hbm, ⟨78, _⟩ => ⟨S600000, .i32⟩
  | .hbm, ⟨79, _⟩ => ⟨S600000, .i32⟩
  | .hbm, ⟨80, _⟩ => ⟨S600000x1, .i32⟩
  | .hbm, ⟨81, _⟩ => ⟨S600000x128, .f32⟩
  | .hbm, ⟨82, _⟩ => ⟨S_, .f32⟩
  | .hbm, ⟨83, _⟩ => ⟨S50000x128, .f32⟩
  | .hbm, ⟨84, _⟩ => ⟨S600000x1, .i32⟩
  | .hbm, ⟨85, _⟩ => ⟨S50000x128, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128x128, .f32⟩
  | .local _ .vmem, ⟨20, _⟩ => ⟨S128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_cst_5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_6 : Ref sig .tc := ⟨.hbm, 48, rfl⟩
abbrev main_v23 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_9 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_10 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_12 : Ref sig .tc := ⟨.hbm, 73, rfl⟩
abbrev main_v42 : Ref sig .tc := ⟨.hbm, 74, rfl⟩
abbrev main_v43 : Ref sig .tc := ⟨.hbm, 75, rfl⟩
abbrev main_c_13 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_14 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_15 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v57) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S600000, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S600000, .f32⟩
  | .hbm, ⟨50, _⟩ => ⟨S_, .f32⟩
  | .hbm, ⟨51, _⟩ => ⟨S50000, .f32⟩
  | .hbm, ⟨52, _⟩ => ⟨S600000x1, .i32⟩
  | .hbm, ⟨53, _⟩ => ⟨S50000, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S600000, .f32⟩
  | .hbm, ⟨82, _⟩ => ⟨S_, .f32⟩
  | .hbm, ⟨83, _⟩ => ⟨S50000, .f32⟩
  | .hbm, ⟨84, _⟩ => ⟨S600000x1, .i32⟩
  | .hbm, ⟨85, _⟩ => ⟨S50000, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S600000x128, .f32⟩
  | .hbm, ⟨95, _⟩ => ⟨S_, .f32⟩
  | .hbm, ⟨96, _⟩ => ⟨S50000x128, .f32⟩
  | .hbm, ⟨97, _⟩ => ⟨S600000x1, .i32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000, .f32⟩
  | .hbm, ⟨102, _⟩ => ⟨S50000x1, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_3 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_cst_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_c_13 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageSpec.lean ====
/-
  The two results as functions of the argument arrays, entry by entry, over the extended reals.

  A mean-aggregating graph layer sends a node's own feature row `h[r, ·]` and the mean `n[r, ·]` of its
  neighbours' rows through two 128 × 128 matrices and adds a bias:
  `layer h n Ws Wn b (r, j) = ∑ k, h[r, k] · Ws[k, j] + ∑ k, n[r, k] · Wn[k, j] + b[j]`.
  The user result is the sum of two such layers (the user–user and the item–user relation, both over the
  user rows); the item result is one layer. The number of rows `M` is a parameter, so that the same
  functions speak of a whole array and of one row tile of it.

  A program that adds the six terms of the user result one after the other from the left computes the same
  extended real as one that adds the two layers: addition on the extended reals is associative
  (`six_terms`), infinite entries included.
-/
import Idealize.ShloMosaic.PureOps.Ideal.Laws
import Idealize.ShloMosaic.Lib.ValueIdx

noncomputable section

open scoped BigOperators

namespace Cert.Sage

open Idealize.ShloMosaic Idealize.ShloMosaic.ValueIdx

/-- Row `r` of `x` against column `j` of `w`. -/
def proj {M : ℕ} (x : (⟨2, ![M, 128]⟩ : Shape).Idx → EReal) (w : (⟨2, ![128, 128]⟩ : Shape).Idx → EReal)
    (r : Fin M) (j : Fin 128) : EReal :=
  ∑ k : Fin 128, x (ix2 r k) * w (ix2 k j)

/-- One relation's layer at row `r`, column `j`: own row and neighbour mean projected, plus the bias. -/
def layer {M : ℕ} (h n : (⟨2, ![M, 128]⟩ : Shape).Idx → EReal) (Ws Wn : (⟨2, ![128, 128]⟩ : Shape).Idx → EReal)
    (b : (⟨1, ![128]⟩ : Shape).Idx → EReal) (r : Fin M) (j : Fin 128) : EReal :=
  proj h Ws r j + proj n Wn r j + b (ix1 j)

/-- The user result: the two relations that end in a user node, added. -/
def userOut {M : ℕ} (h n₁ n₂ : (⟨2, ![M, 128]⟩ : Shape).Idx → EReal)
    (Ws₁ Wn₁ : (⟨2, ![128, 128]⟩ : Shape).Idx → EReal) (b₁ : (⟨1, ![128]⟩ : Shape).Idx → EReal)
    (Ws₂ Wn₂ : (⟨2, ![128, 128]⟩ : Shape).Idx → EReal) (b₂ : (⟨1, ![128]⟩ : Shape).Idx → EReal) :
    (⟨2, ![M, 128]⟩ : Shape).Idx → EReal :=
  fun i => layer h n₁ Ws₁ Wn₁ b₁ (i 0) (i 1) + layer h n₂ Ws₂ Wn₂ b₂ (i 0) (i 1)

/-- The item result: the one relation that ends in an item node. -/
def itemOut {M : ℕ} (h n : (⟨2, ![M, 128]⟩ : Shape).Idx → EReal)
    (Ws Wn : (⟨2, ![128, 128]⟩ : Shape).Idx → EReal) (b : (⟨1, ![128]⟩ : Shape).Idx → EReal) :
    (⟨2, ![M, 128]⟩ : Shape).Idx → EReal :=
  fun i => layer h n Ws Wn b (i 0) (i 1)

/-- A layer only reads row `r` of its two row arguments, column `j` of its matrices and entry `j` of its bias: two
    sets of arguments that agree there give the same value (a row tile against the whole array). -/
theorem layer_congr {M M' : ℕ} (h n : (⟨2, ![M, 128]⟩ : Shape).Idx → EReal) (h' n' : (⟨2, ![M', 128]⟩ : Shape).Idx → EReal)
    (Ws Wn Ws' Wn' : (⟨2, ![128, 128]⟩ : Shape).Idx → EReal) (b b' : (⟨1, ![128]⟩ : Shape).Idx → EReal)
    (r : Fin M) (r' : Fin M') (j : Fin 128)
    (hh : ∀ k, h (ix2 r k) = h' (ix2 r' k)) (hn : ∀ k, n (ix2 r k) = n' (ix2 r' k))
    (hWs : ∀ k, Ws (ix2 k j) = Ws' (ix2 k j)) (hWn : ∀ k, Wn (ix2 k j) = Wn' (ix2 k j)) (hb : b (ix1 j) = b' (ix1 j)) :
    layer h n Ws Wn b r j = layer h' n' Ws' Wn' b' r' j := by
  unfold layer proj
  rw [hb, Finset.sum_congr rfl fun k _ => show h (ix2 r k) * Ws (ix2 k j) = h' (ix2 r' k) * Ws' (ix2 k j) by rw [hh k, hWs k],
    Finset.sum_congr rfl fun k _ => show n (ix2 r k) * Wn (ix2 k j) = n' (ix2 r' k) * Wn' (ix2 k j) by rw [hn k, hWn k]]

/-- Six terms added from the left are the first three plus the last three. -/
theorem six_terms (a b c d e f : EReal) : a + b + c + d + e + f = a + b + c + (d + e + f) := by
  simp only [add_assoc]

end Cert.Sage

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.Payload.lean ====
/-
  What each kernel body stores, entry by entry, at the ideal values.

  The user body loads a tile of 5000 rows of the user features `h`, of the user–user neighbour means `n₁` and
  of the item–user neighbour means `n₂`, the four weight matrices and the two biases whole, and stores
  `h·Ws₁ + n₁·Wn₁ + b₁ + h·Ws₂ + n₂·Wn₂ + b₂`, the six terms added from the left. Each product into the zero
  accumulator is, at an entry, the sum over the contracted axis; a bias is cast to one row and that row
  repeated down the tile. So the stored tile is `userOut` of the loaded tiles: the six terms regrouped into
  the two layers by associativity. The item body is one layer and needs no regrouping.
-/
import proofs.«166475_j5729486373122_1_alg».proof.Proof.Gen.KernelIdeal.Skeleton
import proofs.«166475_j5729486373122_1_alg».proof.Proof.SageSpec
import proofs.«166475_j5729486373122_1_alg».proof.Proof.LibMatmulAt
import Idealize.ShloMosaic.Lib.Pipeline.Value
import Idealize.ShloMosaic.Lib.ValueLayout

noncomputable section

open scoped BigOperators

namespace Cert.Sage

open Idealize.ShloMosaic Idealize.ShloMosaic.ValueIdx
open Cert.KernelIdeal Cert.KernelIdeal.Gen

/-- A product of a 5000-row tile with a 128 × 128 matrix into the zero accumulator, at an entry. -/
theorem tile_matmul_at (x : FVec Ideal S5000x128 .f32) (w : FVec Ideal S128x128 .f32) (p : Fin 5000) (q : Fin 128) :
    matmul (F := Ideal) dot_S5000x128_S128x128_S5000x128_1_0_0_1_n_n none x w (constant S5000x128 .f32 0x00000000#32) (ix2 p q)
      = proj x w p q :=
  Cert.LibMatmulAt.matmul_zero_at dot_S5000x128_S128x128_S5000x128_1_0_0_1_n_n rfl rfl rfl rfl rfl rfl none x w p q

/-- A bias cast to one row and repeated down the tile reads, at `(p, q)`, the bias at `q`. -/
theorem bias_rows_at (b : FVec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- THE USER BODY'S STORE at an entry of the tile. -/
theorem user_payload_at (v0 v1 v3 : Vec Ideal S5000x128 .f32) (v5 v7 : Vec Ideal S128x128 .f32) (v10 : Vec Ideal S128 .f32)
    (v14 v17 : Vec Ideal S128x128 .f32) (v20 : Vec Ideal S128 .f32) (p : Fin 5000) (q : Fin 128) :
    k0_pay1 (F := Ideal) v0 v1 v3 v5 v7 v10 v14 v17 v20 (ix2 p q) = userOut v0 v1 v3 v5 v7 v10 v14 v17 v20 (ix2 p q) := by
  unfold k0_pay1
  rw [shapeCast_self v1, shapeCast_self v3]
  simp only [addf_apply, tile_matmul_at, bias_rows_at]
  exact six_terms _ _ _ _ _ _

/-- THE ITEM BODY'S STORE at an entry of the tile. -/
theorem item_payload_at (v0 v1 : Vec Ideal S5000x128 .f32) (v3 v5 : Vec Ideal S128x128 .f32) (v8 : Vec Ideal S128 .f32)
    (p : Fin 5000) (q : Fin 128) :
    k1_pay1 (F := Ideal) v0 v1 v3 v5 v8 (ix2 p q) = itemOut v0 v1 v3 v5 v8 (ix2 p q) := by
  unfold k1_pay1
  rw [shapeCast_self v1]
  simp only [addf_apply, tile_matmul_at, bias_rows_at]
  rfl

end Cert.Sage

end
-- ==== Proof.UserRegion.lean ====
/-
  The user region: what its ten row tiles leave in the user result array.

  The region is entered with the TensorCore's buffers at some contents `V`. Point `t` of its grid of ten
  reads rows `5000·t … 5000·t + 4999` of the user features and of the two neighbour-mean arrays, the four
  weight matrices and the two biases whole, and writes back rows `5000·t … 5000·t + 4999` of the result. A
  tile of `userOut` only reads the same rows of its three row arguments, so what point `t` writes back is
  tile `t` of `userOut` of the whole arrays; the ten tiles cover the 50000 rows, so the array ends at
  `userOut` of the arrays as the region found them.
-/
import proofs.«166475_j5729486373122_1_alg».proof.Proof.Gen.KernelIdeal.Frame
import proofs.«166475_j5729486373122_1_alg».proof.Proof.Payload

set_option maxRecDepth 16384

noncomputable section

open scoped BigOperators

namespace Cert.Sage.User

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The user result as a function of the arrays the region finds. -/
def result (c : Dev nD) : Vec Ideal S50000x128 .f32 :=
  userOut (V c main_arg0) (V c main_v18) (V c main_v37) (V c main_arg2) (V c main_arg3) (V c main_arg4)
    (V c main_arg8) (V c main_arg9) (V c main_arg10)

/-- The printed index maps over the grid: the three row windows move with the result's window, tile `t` at
    point `t`; the matrices and biases stay at block zero. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row `p` of tile `t`, as a row of the whole array. -/
def row (t : Fin cfg0.N) (p : Fin 5000) : Fin 50000 :=
  ⟨t.val * 5000 + p.val, by have h := t.isLt; have hN : cfg0.N = 10 := N_0; have := p.isLt; omega⟩

/-- An entry of a row window's tile `t` lies in row `row t p` of its array, same column. -/
theorem rows0 (t : Fin cfg0.N) (p : Fin 5000) (k : Fin 128) : ((cfg0.win 0).blk t).view.emb (ix2 p k) = ix2 (row t p) k := by
  obtain ⟨e0, e1, -, -, -, -, -, -, -, -, -, -, -, -, -, -, e16, -⟩ := idx_facts t
  funext a; apply Fin.ext
  match a with
  | ⟨0, _⟩ => show win0_0.index t (0 : Fin 2) * 5000 + 1 * p.val = t.val * 5000 + p.val; rw [e0, e16]; omega
  | ⟨1, _⟩ => show win0_0.index t (1 : Fin 2) * 128 + 1 * k.val = k.val; rw [e1]; omega
theorem rows1 (t : Fin cfg0.N) (p : Fin 5000) (k : Fin 128) : ((cfg0.win 1).blk t).view.emb (ix2 p k) = ix2 (row t p) k := by
  obtain ⟨-, -, e2, e3, -, -, -, -, -, -, -, -, -, -, -, -, e16, -⟩ := idx_facts t
  funext a; apply Fin.ext
  match a with
  | ⟨0, _⟩ => show win0_1.index t (0 : Fin 2) * 5000 + 1 * p.val = t.val * 5000 + p.val; rw [e2, e16]; omega
  | ⟨1, _⟩ => show win0_1.index t (1 : Fin 2) * 128 + 1 * k.val = k.val; rw [e3]; omega
theorem rows2 (t : Fin cfg0.N) (p : Fin 5000) (k : Fin 128) : ((cfg0.win 2).blk t).view.emb (ix2 p k) = ix2 (row t p) k := by
  obtain ⟨-, -, -, -, e4, e5, -, -, -, -, -, -, -, -, -, -, e16, -⟩ := idx_facts t
  funext a; apply Fin.ext
  match a with
  | ⟨0, _⟩ => show win0_2.index t (0 : Fin 2) * 5000 + 1 * p.val = t.val * 5000 + p.val; rw [e4, e16]; omega
  | ⟨1, _⟩ => show win0_2.index t (1 : Fin 2) * 128 + 1 * k.val = k.val; rw [e5]; omega
theorem rows9 (t : Fin cfg0.N) (p : Fin 5000) (k : Fin 128) : ((cfg0.win 9).blk t).view.emb (ix2 p k) = ix2 (row t p) k := by
  obtain ⟨-, -, -, -, -, -, -, -, -, -, -, -, -, -, -, -, e16, e17⟩ := idx_facts t
  funext a; apply Fin.ext
  match a with
  | ⟨0, _⟩ => show win0_9.index t (0 : Fin 2) * 5000 + 1 * p.val = t.val * 5000 + p.val; rw [e16]; omega
  | ⟨1, _⟩ => show win0_9.index t (1 : Fin 2) * 128 + 1 * k.val = k.val; rw [e17]; omega

/-- A matrix window's one block is the whole matrix. -/
theorem mat3 (t : Fin cfg0.N) (k q : Fin 128) : ((cfg0.win 3).blk t).view.emb (ix2 k q) = ix2 k q := by
  obtain ⟨-, -, -, -, -, -, e6, e7, -, -, -, -, -, -, -, -, -, -⟩ := idx_facts t
  funext a; apply Fin.ext
  match a with
  | ⟨0, _⟩ => show win0_3.index t (0 : Fin 2) * 128 + 1 * k.val = k.val; rw [e6]; omega
  | ⟨1, _⟩ => show win0_3.index t (1 : Fin 2) * 128 + 1 * q.val = q.val; rw [e7]; omega
theorem mat4 (t : Fin cfg0.N) (k q : Fin 128) : ((cfg0.win 4).blk t).view.emb (ix2 k q) = ix2 k q := by
  obtain ⟨-, -, -, -, -, -, -, -, e8, e9, -, -, -, -, -, -, -, -⟩ := idx_facts t
  funext a; apply Fin.ext
  match a with
  | ⟨0, _⟩ => show win0_4.index t (0 : Fin 2) * 128 + 1 * k.val = k.val; rw [e8]; omega
  | ⟨1, _⟩ => show win0_4.index t (1 : Fin 2) * 128 + 1 * q.val = q.val; rw [e9]; omega
theorem mat6 (t : Fin cfg0.N) (k q : Fin 128) : ((cfg0.win 6).blk t).view.emb (ix2 k q) = ix2 k q := by
  obtain ⟨-, -, -, -, -, -, -, -, -, -, -, e11, e12, -, -, -, -, -⟩ := idx_facts t
  funext a; apply Fin.ext
  match a with
  | ⟨0, _⟩ => show win0_6.index t (0 : Fin 2) * 128 + 1 * k.val = k.val; rw [e11]; omega
  | ⟨1, _⟩ => show win0_6.index t (1 : Fin 2) * 128 + 1 * q.val = q.val; rw [e12]; omega
theorem mat7 (t : Fin cfg0.N) (k q : Fin 128) : ((cfg0.win 7).blk t).view.emb (ix2 k q) = ix2 k q := by
  obtain ⟨-, -, -, -, -, -, -, -, -, -, -, -, -, e13, e14, -, -, -⟩ := idx_facts t
  funext a; apply Fin.ext
  match a with
  | ⟨0, _⟩ => show win0_7.index t (0 : Fin 2) * 128 + 1 * k.val = k.val; rw [e13]; omega
  | ⟨1, _⟩ => show win0_7.index t (1 : Fin 2) * 128 + 1 * q.val = q.val; rw [e14]; omega

/-- A bias window's one block is the whole bias. -/
theorem bias5 (t : Fin cfg0.N) (q : Fin 128) : ((cfg0.win 5).blk t).view.emb (ix1 q) = ix1 q := by
  obtain ⟨-, -, -, -, -, -, -, -, -, -, e10, -, -, -, -, -, -, -⟩ := idx_facts t
  funext a; apply Fin.ext
  match a with
  | ⟨0, _⟩ => show win0_5.index t (0 : Fin 1) * 128 + 1 * q.val = q.val; rw [e10]; omega
theorem bias8 (t : Fin cfg0.N) (q : Fin 128) : ((cfg0.win 8).blk t).view.emb (ix1 q) = ix1 q := by
  obtain ⟨-, -, -, -, -, -, -, -, -, -, -, -, -, -, -, e15, -, -⟩ := idx_facts t
  funext a; apply Fin.ext
  match a with
  | ⟨0, _⟩ => show win0_8.index t (0 : Fin 1) * 128 + 1 * q.val = q.val; rw [e15]; omega

/-- The windows' blocks at point `t`, read at an entry, against the arrays the region finds. -/
theorem blk0_at (c : Dev nD) (t : Fin cfg0.N) (p : Fin 5000) (k : Fin 128) :
    iblk0 V c 0 t (ix2 p k) = V c main_arg0 (ix2 (row t p) k) := congrArg (V c main_arg0) (rows0 t p k)
theorem blk1_at (c : Dev nD) (t : Fin cfg0.N) (p : Fin 5000) (k : Fin 128) :
    iblk0 V c 1 t (ix2 p k) = V c main_v18 (ix2 (row t p) k) := congrArg (V c main_v18) (rows1 t p k)
theorem blk2_at (c : Dev nD) (t : Fin cfg0.N) (p : Fin 5000) (k : Fin 128) :
    iblk0 V c 2 t (ix2 p k) = V c main_v37 (ix2 (row t p) k) := congrArg (V c main_v37) (rows2 t p k)
theorem blk3_at (c : Dev nD) (t : Fin cfg0.N) (k q : Fin 128) :
    iblk0 V c 3 t (ix2 k q) = V c main_arg2 (ix2 k q) := congrArg (V c main_arg2) (mat3 t k q)
theorem blk4_at (c : Dev nD) (t : Fin cfg0.N) (k q : Fin 128) :
    iblk0 V c 4 t (ix2 k q) = V c main_arg3 (ix2 k q) := congrArg (V c main_arg3) (mat4 t k q)
theorem blk5_at (c : Dev nD) (t : Fin cfg0.N) (q : Fin 128) :
    iblk0 V c 5 t (ix1 q) = V c main_arg4 (ix1 q) := congrArg (V c main_arg4) (bias5 t q)
theorem blk6_at (c : Dev nD) (t : Fin cfg0.N) (k q : Fin 128) :
    iblk0 V c 6 t (ix2 k q) = V c main_arg8 (ix2 k q) := congrArg (V c main_arg8) (mat6 t k q)
theorem blk7_at (c : Dev nD) (t : Fin cfg0.N) (k q : Fin 128) :
    iblk0 V c 7 t (ix2 k q) = V c main_arg9 (ix2 k q) := congrArg (V c main_arg9) (mat7 t k q)
theorem blk8_at (c : Dev nD) (t : Fin cfg0.N) (q : Fin 128) :
    iblk0 V c 8 t (ix1 q) = V c main_arg10 (ix1 q) := congrArg (V c main_arg10) (bias8 t q)

/-- WHAT POINT `t` WRITES BACK is tile `t` of the user result. -/
theorem flushed_eq (c : Dev nD) (t : Fin cfg0.N) :
    (dat0 V c).flushed 9 t = ((cfg0.win 9).blk t).view.read (Elt Ideal) (result V c) := by
  show (cfg0.win 9).cut (grid0.coords t) ((dat0 V c).after 9 t) = _
  rw [after0_9]
  unfold out0_9
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
    = result V c (((cfg0.win 9).blk t).view.emb (ix2 p q))
  refine (user_payload_at (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
  rw [rows9 t p q]
  show layer (iblk0 V c 0 t) (iblk0 V c 1 t) (iblk0 V c 3 t) (iblk0 V c 4 t) (iblk0 V c 5 t) p q
        + layer (iblk0 V c 0 t) (iblk0 V c 2 t) (iblk0 V c 6 t) (iblk0 V c 7 t) (iblk0 V c 8 t) p q
      = layer (V c main_arg0) (V c main_v18) (V c main_arg2) (V c main_arg3) (V c main_arg4) (row t p) q
        + layer (V c main_arg0) (V c main_v37) (V c main_arg8) (V c main_arg9) (V c main_arg10) (row t p) q
  rw [layer_congr (iblk0 V c 0 t) (iblk0 V c 1 t) (V c main_arg0) (V c main_v18) (iblk0 V c 3 t) (iblk0 V c 4 t) (V c main_arg2) (V c main_arg3)
        (iblk0 V c 5 t) (V c main_arg4) p (row t p) q (fun k => blk0_at V c t p k) (fun k => blk1_at V c t p k)
        (fun k => blk3_at V c t k q) (fun k => blk4_at V c t k q) (blk5_at V c t q),
      layer_congr (iblk0 V c 0 t) (iblk0 V c 2 t) (V c main_arg0) (V c main_v37) (iblk0 V c 6 t) (iblk0 V c 7 t) (V c main_arg8) (V c main_arg9)
        (iblk0 V c 8 t) (V c main_arg10) p (row t p) q (fun k => blk0_at V c t p k) (fun k => blk2_at V c t p k)
        (fun k => blk6_at V c t k q) (fun k => blk7_at V c t k q) (blk8_at V c t q)]

/-- Every row of the result lies in some tile: row `r` in tile `r / 5000`. -/
theorem covered (i : S50000x128.Idx) :
    ∃ t : Fin cfg0.N, (cfg0.win 9).flush t = true ∧ i ∈ ((cfg0.win 9).blk t).view.set := by
  have hN : cfg0.N = 10 := N_0
  have hi0 : (i 0).val < 50000 := (i 0).isLt
  have hi1 : (i 1).val < 128 := (i 1).isLt
  let t : Fin cfg0.N := ⟨(i 0).val / 5000, by omega⟩
  obtain ⟨-, -, -, -, -, -, -, -, -, -, -, -, -, -, -, -, e16, e17⟩ := idx_facts t
  refine ⟨t, flush0_9 t, ?_⟩
  show i ∈ ((View.whole main_v57).slice (win0_9.rect t)).set
  rw [View.set_slice_whole, Rect.mem_set_unit]
  intro a
  match a with
  | ⟨0, _⟩ =>
    show win0_9.index t (0 : Fin 2) * 5000 ≤ (i 0).val ∧ (i 0).val < win0_9.index t (0 : Fin 2) * 5000 + 5000
    rw [e16]; show (i 0).val / 5000 * 5000 ≤ (i 0).val ∧ (i 0).val < (i 0).val / 5000 * 5000 + 5000; omega
  | ⟨1, _⟩ =>
    show win0_9.index t (1 : Fin 2) * 128 ≤ (i 1).val ∧ (i 1).val < win0_9.index t (1 : Fin 2) * 128 + 128
    rw [e17]; omega

/-- THE USER RESULT ARRAY after the region: `userOut` of the arrays the region found. -/
theorem final (c : Dev nD) : (dat0 V c).arrAt 9 cfg0.N = result V c :=
  (dat0 V c).arrAt_eq_of_cover 9 (result V c) (fun t _ => flushed_eq V c t) covered

end Cert.Sage.User

end
-- ==== Proof.ItemRegion.lean ====
/-
  The item region: what its ten row tiles leave in the item result array.

  Point `t` of the grid of ten reads rows `5000·t … 5000·t + 4999` of the item features and of the user–item
  neighbour means, the two weight matrices and the bias whole, and writes back the same rows of the result: tile
  `t` of `itemOut` of the whole arrays. The ten tiles cover the 50000 rows, so the array ends at `itemOut` of the
  arrays as the region found them.
-/
import proofs.«166475_j5729486373122_1_alg».proof.Proof.Gen.KernelIdeal.Frame
import proofs.«166475_j5729486373122_1_alg».proof.Proof.Payload

set_option maxRecDepth 16384

noncomputable section

open scoped BigOperators

namespace Cert.Sage.Item

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The item result as a function of the arrays the region finds. -/
def result (c : Dev nD) : Vec Ideal S50000x128 .f32 :=
  itemOut (V c main_arg1) (V c main_v56) (V c main_arg5) (V c main_arg6) (V c main_arg7)

/-- The printed index maps over the grid: the two row windows move with the result's window, tile `t` at point
    `t`; the matrices and the bias stay at block zero. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row `p` of tile `t`, as a row of the whole array. -/
def row (t : Fin cfg1.N) (p : Fin 5000) : Fin 50000 :=
  ⟨t.val * 5000 + p.val, by have h := t.isLt; have hN : cfg1.N = 10 := N_1; have := p.isLt; omega⟩

/-- An entry of a row window's tile `t` lies in row `row t p` of its array, same column. -/
theorem rows0 (t : Fin cfg1.N) (p : Fin 5000) (k : Fin 128) : ((cfg1.win 0).blk t).view.emb (ix2 p k) = ix2 (row t p) k := by
  obtain ⟨e0, e1, -, -, -, -, -, -, -, e9, -⟩ := idx_facts t
  funext a; apply Fin.ext
  match a with
  | ⟨0, _⟩ => show win1_0.index t (0 : Fin 2) * 5000 + 1 * p.val = t.val * 5000 + p.val; rw [e0, e9]; omega
  | ⟨1, _⟩ => show win1_0.index t (1 : Fin 2) * 128 + 1 * k.val = k.val; rw [e1]; omega
theorem rows1 (t : Fin cfg1.N) (p : Fin 5000) (k : Fin 128) : ((cfg1.win 1).blk t).view.emb (ix2 p k) = ix2 (row t p) k := by
  obtain ⟨-, -, e2, e3, -, -, -, -, -, e9, -⟩ := idx_facts t
  funext a; apply Fin.ext
  match a with
  | ⟨0, _⟩ => show win1_1.index t (0 : Fin 2) * 5000 + 1 * p.val = t.val * 5000 + p.val; rw [e2, e9]; omega
  | ⟨1, _⟩ => show win1_1.index t (1 : Fin 2) * 128 + 1 * k.val = k.val; rw [e3]; omega
theorem rows5 (t : Fin cfg1.N) (p : Fin 5000) (k : Fin 128) : ((cfg1.win 5).blk t).view.emb (ix2 p k) = ix2 (row t p) k := by
  obtain ⟨-, -, -, -, -, -, -, -, -, e9, e10⟩ := idx_facts t
  funext a; apply Fin.ext
  match a with
  | ⟨0, _⟩ => show win1_5.index t (0 : Fin 2) * 5000 + 1 * p.val = t.val * 5000 + p.val; rw [e9]; omega
  | ⟨1, _⟩ => show win1_5.index t (1 : Fin 2) * 128 + 1 * k.val = k.val; rw [e10]; omega

/-- A matrix window's one block is the whole matrix. -/
theorem mat2 (t : Fin cfg1.N) (k q : Fin 128) : ((cfg1.win 2).blk t).view.emb (ix2 k q) = ix2 k q := by
  obtain ⟨-, -, -, -, e4, e5, -, -, -, -, -⟩ := idx_facts t
  funext a; apply Fin.ext
  match a with
  | ⟨0, _⟩ => show win1_2.index t (0 : Fin 2) * 128 + 1 * k.val = k.val; rw [e4]; omega
  | ⟨1, _⟩ => show win1_2.index t (1 : Fin 2) * 128 + 1 * q.val = q.val; rw [e5]; omega
theorem mat3 (t : Fin cfg1.N) (k q : Fin 128) : ((cfg1.win 3).blk t).view.emb (ix2 k q) = ix2 k q := by
  obtain ⟨-, -, -, -, -, -, e6, e7, -, -, -⟩ := idx_facts t
  funext a; apply Fin.ext
  match a with
  | ⟨0, _⟩ => show win1_3.index t (0 : Fin 2) * 128 + 1 * k.val = k.val; rw [e6]; omega
  | ⟨1, _⟩ => show win1_3.index t (1 : Fin 2) * 128 + 1 * q.val = q.val; rw [e7]; omega

/-- The bias window's one block is the whole bias. -/
theorem bias4 (t : Fin cfg1.N) (q : Fin 128) : ((cfg1.win 4).blk t).view.emb (ix1 q) = ix1 q := by
  obtain ⟨-, -, -, -, -, -, -, -, e8, -, -⟩ := idx_facts t
  funext a; apply Fin.ext
  match a with
  | ⟨0, _⟩ => show win1_4.index t (0 : Fin 1) * 128 + 1 * q.val = q.val; rw [e8]; omega

/-- The windows' blocks at point `t`, read at an entry, against the arrays the region finds. -/
theorem blk0_at (c : Dev nD) (t : Fin cfg1.N) (p : Fin 5000) (k : Fin 128) :
    iblk1 V c 0 t (ix2 p k) = V c main_arg1 (ix2 (row t p) k) := congrArg (V c main_arg1) (rows0 t p k)
theorem blk1_at (c : Dev nD) (t : Fin cfg1.N) (p : Fin 5000) (k : Fin 128) :
    iblk1 V c 1 t (ix2 p k) = V c main_v56 (ix2 (row t p) k) := congrArg (V c main_v56) (rows1 t p k)
theorem blk2_at (c : Dev nD) (t : Fin cfg1.N) (k q : Fin 128) :
    iblk1 V c 2 t (ix2 k q) = V c main_arg5 (ix2 k q) := congrArg (V c main_arg5) (mat2 t k q)
theorem blk3_at (c : Dev nD) (t : Fin cfg1.N) (k q : Fin 128) :
    iblk1 V c 3 t (ix2 k q) = V c main_arg6 (ix2 k q) := congrArg (V c main_arg6) (mat3 t k q)
theorem blk4_at (c : Dev nD) (t : Fin cfg1.N) (q : Fin 128) :
    iblk1 V c 4 t (ix1 q) = V c main_arg7 (ix1 q) := congrArg (V c main_arg7) (bias4 t q)

/-- WHAT POINT `t` WRITES BACK is tile `t` of the item result. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = result V c (((cfg1.win 5).blk t).view.emb (ix2 p q))
  refine (item_payload_at (iblk1 V c 0 t) (iblk1 V c 1 t) (iblk1 V c 2 t) (iblk1 V c 3 t) (iblk1 V c 4 t) p q).trans ?_
  rw [rows5 t p q]
  show layer (iblk1 V c 0 t) (iblk1 V c 1 t) (iblk1 V c 2 t) (iblk1 V c 3 t) (iblk1 V c 4 t) p q
      = layer (V c main_arg1) (V c main_v56) (V c main_arg5) (V c main_arg6) (V c main_arg7) (row t p) q
  exact layer_congr (iblk1 V c 0 t) (iblk1 V c 1 t) (V c main_arg1) (V c main_v56) (iblk1 V c 2 t) (iblk1 V c 3 t) (V c main_arg5) (V c main_arg6)
    (iblk1 V c 4 t) (V c main_arg7) p (row t p) q (fun k => blk0_at V c t p k) (fun k => blk1_at V c t p k)
    (fun k => blk2_at V c t k q) (fun k => blk3_at V c t k q) (blk4_at V c t q)

/-- Every row of the result lies in some tile: row `r` in tile `r / 5000`. -/
theorem covered (i : S50000x128.Idx) :
    ∃ t : Fin cfg1.N, (cfg1.win 5).flush t = true ∧ i ∈ ((cfg1.win 5).blk t).view.set := by
  have hN : cfg1.N = 10 := N_1
  have hi0 : (i 0).val < 50000 := (i 0).isLt
  have hi1 : (i 1).val < 128 := (i 1).isLt
  let t : Fin cfg1.N := ⟨(i 0).val / 5000, by omega⟩
  obtain ⟨-, -, -, -, -, -, -, -, -, e9, e10⟩ := idx_facts t
  refine ⟨t, flush1_5 t, ?_⟩
  show i ∈ ((View.whole main_v58).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e9]; show (i 0).val / 5000 * 5000 ≤ (i 0).val ∧ (i 0).val < (i 0).val / 5000 * 5000 + 5000; omega
  | ⟨1, _⟩ =>
    show win1_5.index t (1 : Fin 2) * 128 ≤ (i 1).val ∧ (i 1).val < win1_5.index t (1 : Fin 2) * 128 + 128
    rw [e10]; omega

/-- THE ITEM RESULT ARRAY after the region: `itemOut` of the arrays the region found. -/
theorem final (c : Dev nD) : (dat1 V c).arrAt 5 cfg1.N = result V c :=
  (dat1 V c).arrAt_eq_of_cover 5 (result V c) (fun t _ => flushed_eq V c t) covered

end Cert.Sage.Item

end
-- ==== Proof.KernelValue.lean ====
/-
  The idealized kernel's two result buffers after the run, as functions of the launch memory.

  @main is one stretch of host operations (the three neighbour means) and then the two regions. The user result is
  not touched by the item region, so it ends at what the user region leaves: `userOut` of the arrays that region
  finds — the arguments, which no host operation writes, and the two neighbour means the host stretch computed. The
  item result ends at `itemOut` of what the item region finds: arguments again, and the third neighbour mean, which
  the user region does not touch. Each neighbour mean, read back through the host stretch, is the very composition
  of host operations the reference applies to the same arguments (its stages `val_main_v18`, `val_main_v43`,
  `val_main_v69`): scatter-add of ones for the degrees, the wrapped gather of source rows, their scatter-add, and
  the quotient by the degree clamped below at one. Nothing here looks inside that composition.
-/
import proofs.«166475_j5729486373122_1_alg».proof.Proof.KernelRun
import proofs.«166475_j5729486373122_1_alg».proof.Proof.UserRegion
import proofs.«166475_j5729486373122_1_alg».proof.Proof.ItemRegion
import proofs.«166475_j5729486373122_1_alg».proof.Proof.Gen.ReferenceIdeal.Read
import Idealize.ShloMosaic.Lib.StableHlo.Run

set_option maxRecDepth 16384

noncomputable section

namespace Cert.Sage.Kernel

open Idealize.ShloMosaic Idealize.ShloMosaic.TcCoe Idealize.ShloMosaic.ValueIdx Idealize.SL.Sem Idealize.ShloMosaic.StableHlo
open Cert.KernelIdeal Cert.KernelIdeal.Gen
open Cert.ReferenceIdeal.Read (val_main_v18 val_main_v43 val_main_v69)

variable (m : (ℓ : Loc nD τ sig) → Buf (Elt Ideal) ℓ) (ρ : Dev nD → PrngReg)

/-! ## The user region's entry: its argument windows hold the launch contents -/

theorem user_arg0 (c : Dev nD) : V1 m ρ c main_arg0 = m ((c : Thread nD τ).loc main_arg0) :=
  ((W2_arr m ρ c 0).trans (((dat0 (V1 m ρ) c).arrAt_in 0 rfl _).trans (A_eq0 (V1 m ρ) c 0))).symm.trans
    ((W3_of_ne m ρ c main_arg0 (by decide)).symm.trans (W3_main_arg0 m ρ c))
theorem user_arg2 (c : Dev nD) : V1 m ρ c main_arg2 = m ((c : Thread nD τ).loc main_arg2) :=
  ((W2_arr m ρ c 3).trans (((dat0 (V1 m ρ) c).arrAt_in 3 rfl _).trans (A_eq0 (V1 m ρ) c 3))).symm.trans
    ((W3_of_ne m ρ c main_arg2 (by decide)).symm.trans (W3_main_arg2 m ρ c))
theorem user_arg3 (c : Dev nD) : V1 m ρ c main_arg3 = m ((c : Thread nD τ).loc main_arg3) :=
  ((W2_arr m ρ c 4).trans (((dat0 (V1 m ρ) c).arrAt_in 4 rfl _).trans (A_eq0 (V1 m ρ) c 4))).symm.trans
    ((W3_of_ne m ρ c main_arg3 (by decide)).symm.trans (W3_main_arg3 m ρ c))
theorem user_arg4 (c : Dev nD) : V1 m ρ c main_arg4 = m ((c : Thread nD τ).loc main_arg4) :=
  ((W2_arr m ρ c 5).trans (((dat0 (V1 m ρ) c).arrAt_in 5 rfl _).trans (A_eq0 (V1 m ρ) c 5))).symm.trans
    ((W3_of_ne m ρ c main_arg4 (by decide)).symm.trans (W3_main_arg4 m ρ c))
theorem user_arg8 (c : Dev nD) : V1 m ρ c main_arg8 = m ((c : Thread nD τ).loc main_arg8) :=
  ((W2_arr m ρ c 6).trans (((dat0 (V1 m ρ) c).arrAt_in 6 rfl _).trans (A_eq0 (V1 m ρ) c 6))).symm.trans
    ((W3_of_ne m ρ c main_arg8 (by decide)).symm.trans (W3_main_arg8 m ρ c))
theorem user_arg9 (c : Dev nD) : V1 m ρ c main_arg9 = m ((c : Thread nD τ).loc main_arg9) :=
  ((W2_arr m ρ c 7).trans (((dat0 (V1 m ρ) c).arrAt_in 7 rfl _).trans (A_eq0 (V1 m ρ) c 7))).symm.trans
    ((W3_of_ne m ρ c main_arg9 (by decide)).symm.trans (W3_main_arg9 m ρ c))
theorem user_arg10 (c : Dev nD) : V1 m ρ c main_arg10 = m ((c : Thread nD τ).loc main_arg10) :=
  ((W2_arr m ρ c 8).trans (((dat0 (V1 m ρ) c).arrAt_in 8 rfl _).trans (A_eq0 (V1 m ρ) c 8))).symm.trans
    ((W3_of_ne m ρ c main_arg10 (by decide)).symm.trans (W3_main_arg10 m ρ c))

/-! ## The item region's entry: its argument windows hold the launch contents -/

theorem item_arg1 (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans (W3_main_arg1 m ρ c)
theorem item_arg5 (c : Dev nD) : V2 m ρ c main_arg5 = m ((c : Thread nD τ).loc main_arg5) :=
  ((W3_arr m ρ c 2).trans (((dat1 (V2 m ρ) c).arrAt_in 2 rfl _).trans (A_eq1 (V2 m ρ) c 2))).symm.trans (W3_main_arg5 m ρ c)
theorem item_arg6 (c : Dev nD) : V2 m ρ c main_arg6 = m ((c : Thread nD τ).loc main_arg6) :=
  ((W3_arr m ρ c 3).trans (((dat1 (V2 m ρ) c).arrAt_in 3 rfl _).trans (A_eq1 (V2 m ρ) c 3))).symm.trans (W3_main_arg6 m ρ c)
theorem item_arg7 (c : Dev nD) : V2 m ρ c main_arg7 = m ((c : Thread nD τ).loc main_arg7) :=
  ((W3_arr m ρ c 4).trans (((dat1 (V2 m ρ) c).arrAt_in 4 rfl _).trans (A_eq1 (V2 m ρ) c 4))).symm.trans (W3_main_arg7 m ρ c)

/-! ## The three neighbour means, read back through the host stretch -/

/-- User–user: over the user features, sources `%arg11`, destinations `%arg12`. -/
theorem neigh_uu (c : Dev nD) :
    V1 m ρ c main_v18 = val_main_v18 (F := Ideal) (m ((c : Thread nD τ).loc main_arg0)) (m ((c : Thread nD τ).loc main_arg11)) (m ((c : Thread nD τ).loc main_arg12)) := by
  show StableHlo.after hostOps0 (W0 m ρ c) (Proc.devRef .tc main_v18) = _
  after_results_simp
  rfl

/-- Item–user: over the item features, sources `%arg15`, destinations `%arg16`. -/
theorem neigh_iu (c : Dev nD) :
    V1 m ρ c main_v37 = val_main_v43 (F := Ideal) (m ((c : Thread nD τ).loc main_arg1)) (m ((c : Thread nD τ).loc main_arg15)) (m ((c : Thread nD τ).loc main_arg16)) := by
  show StableHlo.after hostOps0 (W0 m ρ c) (Proc.devRef .tc main_v37) = _
  after_results_simp
  rfl

/-- User–item: over the user features, sources `%arg13`, destinations `%arg14`; the user region leaves it alone. -/
theorem neigh_ui (c : Dev nD) :
    V2 m ρ c main_v56 = val_main_v69 (F := Ideal) (m ((c : Thread nD τ).loc main_arg0)) (m ((c : Thread nD τ).loc main_arg13)) (m ((c : Thread nD τ).loc main_arg14)) := by
  refine (W2_of_ne m ρ c main_v56 (by decide)).trans ?_
  show StableHlo.after hostOps0 (W0 m ρ c) (Proc.devRef .tc main_v56) = _
  after_results_simp
  rfl

/-! ## The two results -/

/-- THE USER RESULT after the run. -/
theorem user_value (c : Dev nD) :
    W3 m ρ c (Proc.devRef .tc main_v57)
      = userOut (m ((c : Thread nD τ).loc main_arg0))
          (val_main_v18 (F := Ideal) (m ((c : Thread nD τ).loc main_arg0)) (m ((c : Thread nD τ).loc main_arg11)) (m ((c : Thread nD τ).loc main_arg12)))
          (val_main_v43 (F := Ideal) (m ((c : Thread nD τ).loc main_arg1)) (m ((c : Thread nD τ).loc main_arg15)) (m ((c : Thread nD τ).loc main_arg16)))
          (m ((c : Thread nD τ).loc main_arg2)) (m ((c : Thread nD τ).loc main_arg3)) (m ((c : Thread nD τ).loc main_arg4))
          (m ((c : Thread nD τ).loc main_arg8)) (m ((c : Thread nD τ).loc main_arg9)) (m ((c : Thread nD τ).loc main_arg10)) := by
  refine (W3_of_ne m ρ c main_v57 (by decide)).trans ((W2_arr m ρ c 9).trans ((User.final (V1 m ρ) c).trans ?_))
  show userOut (V1 m ρ c main_arg0) (V1 m ρ c main_v18) (V1 m ρ c main_v37) (V1 m ρ c main_arg2) (V1 m ρ c main_arg3)
    (V1 m ρ c main_arg4) (V1 m ρ c main_arg8) (V1 m ρ c main_arg9) (V1 m ρ c main_arg10) = _
  rw [user_arg0 m ρ c, user_arg2 m ρ c, user_arg3 m ρ c, user_arg4 m ρ c, user_arg8 m ρ c, user_arg9 m ρ c, user_arg10 m ρ c,
    neigh_uu m ρ c, neigh_iu m ρ c]

/-- THE ITEM RESULT after the run. -/
theorem item_value (c : Dev nD) :
    W3 m ρ c (Proc.devRef .tc main_v58)
      = itemOut (m ((c : Thread nD τ).loc main_arg1))
          (val_main_v69 (F := Ideal) (m ((c : Thread nD τ).loc main_arg0)) (m ((c : Thread nD τ).loc main_arg13)) (m ((c : Thread nD τ).loc main_arg14)))
          (m ((c : Thread nD τ).loc main_arg5)) (m ((c : Thread nD τ).loc main_arg6)) (m ((c : Thread nD τ).loc main_arg7)) := by
  refine (W3_arr m ρ c 5).trans ((Item.final (V2 m ρ) c).trans ?_)
  show itemOut (V2 m ρ c main_arg1) (V2 m ρ c main_v56) (V2 m ρ c main_arg5) (V2 m ρ c main_arg6) (V2 m ρ c main_arg7) = _
  rw [item_arg1 m ρ c, item_arg5 m ρ c, item_arg6 m ρ c, item_arg7 m ρ c, neigh_ui m ρ c]

end Cert.Sage.Kernel

end
-- ==== Proof.RefValue.lean ====
/-
  The reference's two results are the specification's functions.

  The reference computes, for the user nodes, one layer per relation (own features and the neighbour means each
  against a 128 × 128 matrix as a host contraction, plus the bias broadcast over the rows) and adds the two
  layers; for the item nodes, one layer. Read at an entry `(r, j)`, each contraction is the sum over the
  contracted axis of row `r` against column `j`, and each broadcast bias is the bias at `j`: the terms of
  `userOut` and `itemOut`, in the same grouping. The three neighbour means stay the reference's own stages of
  the feature and edge arrays; nothing here looks inside them.
-/
import proofs.«166475_j5729486373122_1_alg».proof.Proof.Gen.ReferenceIdeal.Read
import proofs.«166475_j5729486373122_1_alg».proof.Proof.SageSpec

noncomputable section

open scoped BigOperators

namespace Cert.Sage.Ref

open Idealize.ShloMosaic Idealize.ShloMosaic.ValueIdx
open Cert.ReferenceIdeal Cert.ReferenceIdeal.Read

/-! The composed index functions of the six contractions and the three broadcast biases, at `(r, j)`. -/

theorem l19 (r : Fin 50000) (j k : Fin 128) : lidx_main_v19 (ix2 r j) k = ix2 r k :=
  funext fun a => Fin.ext (by match a with | ⟨0, _⟩ => rfl | ⟨1, _⟩ => rfl)
theorem r19 (r : Fin 50000) (j k : Fin 128) : ridx_main_v19 (ix2 r j) k = ix2 k j :=
  funext fun a => Fin.ext (by match a with | ⟨0, _⟩ => rfl | ⟨1, _⟩ => rfl)
theorem l20 (r : Fin 50000) (j k : Fin 128) : lidx_main_v20 (ix2 r j) k = ix2 r k :=
  funext fun a => Fin.ext (by match a with | ⟨0, _⟩ => rfl | ⟨1, _⟩ => rfl)
theorem r20 (r : Fin 50000) (j k : Fin 128) : ridx_main_v20 (ix2 r j) k = ix2 k j :=
  funext fun a => Fin.ext (by match a with | ⟨0, _⟩ => rfl | ⟨1, _⟩ => rfl)
theorem l44 (r : Fin 50000) (j k : Fin 128) : lidx_main_v44 (ix2 r j) k = ix2 r k :=
  funext fun a => Fin.ext (by match a with | ⟨0, _⟩ => rfl | ⟨1, _⟩ => rfl)
theorem r44 (r : Fin 50000) (j k : Fin 128) : ridx_main_v44 (ix2 r j) k = ix2 k j :=
  funext fun a => Fin.ext (by match a with | ⟨0, _⟩ => rfl | ⟨1, _⟩ => rfl)
theorem l45 (r : Fin 50000) (j k : Fin 128) : lidx_main_v45 (ix2 r j) k = ix2 r k :=
  funext fun a => Fin.ext (by match a with | ⟨0, _⟩ => rfl | ⟨1, _⟩ => rfl)
theorem r45 (r : Fin 50000) (j k : Fin 128) : ridx_main_v45 (ix2 r j) k = ix2 k j :=
  funext fun a => Fin.ext (by match a with | ⟨0, _⟩ => rfl | ⟨1, _⟩ => rfl)
theorem l70 (r : Fin 50000) (j k : Fin 128) : lidx_main_v70 (ix2 r j) k = ix2 r k :=
  funext fun a => Fin.ext (by match a with | ⟨0, _⟩ => rfl | ⟨1, _⟩ => rfl)
theorem r70 (r : Fin 50000) (j k : Fin 128) : ridx_main_v70 (ix2 r j) k = ix2 k j :=
  funext fun a => Fin.ext (by match a with | ⟨0, _⟩ => rfl | ⟨1, _⟩ => rfl)
theorem l71 (r : Fin 50000) (j k : Fin 128) : lidx_main_v71 (ix2 r j) k = ix2 r k :=
  funext fun a => Fin.ext (by match a with | ⟨0, _⟩ => rfl | ⟨1, _⟩ => rfl)
theorem r71 (r : Fin 50000) (j k : Fin 128) : ridx_main_v71 (ix2 r j) k = ix2 k j :=
  funext fun a => Fin.ext (by match a with | ⟨0, _⟩ => rfl | ⟨1, _⟩ => rfl)
theorem b23 (r : Fin 50000) (j : Fin 128) : idx_main_v22 (idx_main_v23 (ix2 r j)) = ix1 j :=
  funext fun a => Fin.ext (by match a with | ⟨0, _⟩ => rfl)
theorem b48 (r : Fin 50000) (j : Fin 128) : idx_main_v47 (idx_main_v48 (ix2 r j)) = ix1 j :=
  funext fun a => Fin.ext (by match a with | ⟨0, _⟩ => rfl)
theorem b74 (r : Fin 50000) (j : Fin 128) : idx_main_v73 (idx_main_v74 (ix2 r j)) = ix1 j :=
  funext fun a => Fin.ext (by match a with | ⟨0, _⟩ => rfl)

/-- THE REFERENCE'S USER RESULT is `userOut` of the user features, the two neighbour means and the two relations'
    weights and biases. -/
theorem user_eq (x0 x1 : (⟨S50000x128, .f32⟩ : BufTy).Contents (Elt Ideal)) (x2 x3 : (⟨S128x128, .f32⟩ : BufTy).Contents (Elt Ideal))
    (x4 : (⟨S128, .f32⟩ : BufTy).Contents (Elt Ideal)) (x8 x9 : (⟨S128x128, .f32⟩ : BufTy).Contents (Elt Ideal))
    (x10 : (⟨S128, .f32⟩ : BufTy).Contents (Elt Ideal)) (x11 x12 x15 x16 : (⟨S600000, .i32⟩ : BufTy).Contents (Elt Ideal)) :
    val_main_v50 (F := Ideal) x0 x1 x2 x3 x4 x8 x9 x10 x11 x12 x15 x16
      = userOut x0 (val_main_v18 (F := Ideal) x0 x11 x12) (val_main_v43 (F := Ideal) x1 x15 x16) x2 x3 x4 x8 x9 x10 := by
  funext i
  obtain ⟨r, j, rfl⟩ : ∃ (r : Fin 50000) (j : Fin 128), i = ix2 r j := ⟨i 0, i 1, eq_ix2 i⟩
  rw [val_main_v50_apply, val_main_v24_apply, val_main_v21_apply, val_main_v19_apply, val_main_v20_apply, val_main_v23_apply,
    val_main_v22_apply, val_main_v49_apply, val_main_v46_apply, val_main_v44_apply, val_main_v45_apply, val_main_v48_apply,
    val_main_v47_apply]
  simp only [l19, r19, l20, r20, l44, r44, l45, r45, b23, b48, Ideal.addf_def]
  rfl

/-- THE REFERENCE'S ITEM RESULT is `itemOut` of the item features, the neighbour means and the relation's weights
    and bias. -/
theorem item_eq (x0 x1 : (⟨S50000x128, .f32⟩ : BufTy).Contents (Elt Ideal)) (x5 x6 : (⟨S128x128, .f32⟩ : BufTy).Contents (Elt Ideal))
    (x7 : (⟨S128, .f32⟩ : BufTy).Contents (Elt Ideal)) (x13 x14 : (⟨S600000, .i32⟩ : BufTy).Contents (Elt Ideal)) :
    val_main_v75 (F := Ideal) x0 x1 x5 x6 x7 x13 x14
      = itemOut x1 (val_main_v69 (F := Ideal) x0 x13 x14) x5 x6 x7 := by
  funext i
  obtain ⟨r, j, rfl⟩ : ∃ (r : Fin 50000) (j : Fin 128), i = ix2 r j := ⟨i 0, i 1, eq_ix2 i⟩
  rw [val_main_v75_apply, val_main_v72_apply, val_main_v70_apply, val_main_v71_apply, val_main_v74_apply, val_main_v73_apply]
  simp only [l70, r70, l71, r71, b74, Ideal.addf_def]
  rfl

end Cert.Sage.Ref

end
-- ==== Proof.lean ====
/-
  A two-relation mean-aggregating graph layer over 50000 user and 50000 item nodes: the kernel against its
  reference, over the extended reals.

  Both programs first compute, with the same host operations over the same arguments, the mean of each node's
  neighbours' feature rows for three relations (user–user, item–user, user–item). The reference then forms
  `h·Ws + n·Wn + b` per relation with host contractions and adds the two relations that end in a user node. The
  kernel does the dense part in two tiled calls, ten row tiles of 5000 rows each: the user call adds its six terms
  one after the other from the left, the item call is one relation.

  * Frames: the word-level kernel's and the idealized kernel's are the generated frames of the two-region program;
    the reference's is its generated run with the results dropped.
  * preserves: the idealization applied no rewrite, so there is nothing to state.
  * algebraic: the idealized kernel's two result arrays end at `userOut` and `itemOut` of the arguments and the
    three neighbour means (each region's tiles cover its array, and a tile of the layer reads only its own rows);
    the reference's two results are the same functions of the same arguments and neighbour means, read entry by
    entry. The only law between the two sides is associativity of addition on the extended reals, which holds at
    infinite entries too: the precondition is never opened.
-/
import proofs.«166475_j5729486373122_1_alg».proof.Defs
import proofs.«166475_j5729486373122_1_alg».proof.Proof.Gen.Kernel
import proofs.«166475_j5729486373122_1_alg».proof.Proof.Gen.Kernel.Skeleton
import proofs.«166475_j5729486373122_1_alg».proof.Proof.Gen.Kernel.Launch
import proofs.«166475_j5729486373122_1_alg».proof.Proof.Gen.Kernel.Points
import proofs.«166475_j5729486373122_1_alg».proof.Proof.Gen.Kernel.Frame
import proofs.«166475_j5729486373122_1_alg».proof.Proof.Gen.KernelIdeal
import proofs.«166475_j5729486373122_1_alg».proof.Proof.Gen.KernelIdeal.Skeleton
import proofs.«166475_j5729486373122_1_alg».proof.Proof.Gen.KernelIdeal.Launch
import proofs.«166475_j5729486373122_1_alg».proof.Proof.Gen.KernelIdeal.Points
import proofs.«166475_j5729486373122_1_alg».proof.Proof.Gen.KernelIdeal.Frame
import proofs.«166475_j5729486373122_1_alg».proof.Proof.Gen.ReferenceIdeal
import proofs.«166475_j5729486373122_1_alg».proof.Proof.Gen.Pre_finite_inputs
import proofs.«166475_j5729486373122_1_alg».proof.Proof.Gen.ReferenceIdeal.Run
import proofs.«166475_j5729486373122_1_alg».proof.Proof.Gen.ReferenceIdeal.Read
import proofs.«166475_j5729486373122_1_alg».proof.Proof.KernelValue
import proofs.«166475_j5729486373122_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the seventeen arguments, the idealized kernel's user and item results and the
    reference's are `userOut` and `itemOut` of the same arrays. -/
theorem algebraic : Cert.algebraic_KernelIdeal_ReferenceIdeal := by
  intro m ρ m' ρ' _ hagree
  refine ⟨_, _, (θ_run Cert.KernelIdeal.defs _ _).mono (fun r h c => ⟨(h c).1.trans (Cert.Sage.Kernel.user_value m ρ c),
      (h c).2.1.trans (Cert.Sage.Kernel.item_value m ρ c), (h c).2.2⟩) (Cert.Sage.Launch.run_results (F := Ideal) m ρ), ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16⟩ := hagree c
    rw [Cert.ReferenceIdeal.Read.val_main_v50_eq, Cert.Sage.Ref.user_eq, a0, a1, a2, a3, a4, a8, a9, a10, a11, a12, a15, a16]
  · obtain ⟨a0, a1, a2, a3, a4, a5, a6, a7, a8, a9, a10, a11, a12, a13, a14, a15, a16⟩ := hagree c
    rw [Cert.ReferenceIdeal.Read.val_main_v75_eq, Cert.Sage.Ref.item_eq, a0, a1, a5, a6, a7, a13, a14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
